-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x4x128 : Shape := ⟨3, ![131072, 4, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x4x128 : S_.BroadcastsInDim S131072x4x128 (![] : Fin 0 → Fin S131072x4x128.rank)
  reducesTo_S131072x4x128_S_d0_1_2 : S131072x4x128.ReducesTo [0, 1, 2] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128x384 .f32) (main_arg5 : FVec F S384 .f32) (main_arg6 : FVec F S128x128 .f32) (main_arg7 : FVec F S128x128 .f32) (main_arg8 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128x384 .f32 := Host.absf main_arg4
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S131072x128 .f32) (main_arg1 : FVec F S131072x4x128 .f32) (main_arg2 : FVec F S131072x4x128 .f32) (main_arg3 : FVec F S128x384 .f32) (main_arg4 : FVec F S128x384 .f32) (main_arg5 : FVec F S384 .f32) (main_arg6 : FVec F S128x128 .f32) (main_arg7 : FVec F S128x128 .f32) (main_arg8 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x4x128 .f32 := Host.absf main_arg1
  let main_cst_0 : FVec F S_ .f32 := constant S_ .f32 0x7F800000#32
  let main_v5 : FVec F S131072x4x128 .f32 := broadcastInDim S131072x4x128 ![] bcast_S_S131072x4x128 main_cst_0
  let main_v6 : IVec S131072x4x128 1 := cmpf .olt main_v4 main_v5
  let main_c_1 : IVec S_ 1 := constantI S_ 1 1#1
  let main_v7 : IVec S_ 1 := (fun x v => Host.reduce IntOp.andi x v reducesTo_S131072x4x128_S_d0_1_2 h_S_) main_v6 main_c_1
  let main_v8 : IVec S_ 1 := andi main_v3 main_v7
  let main_v9 : FVec F S131072x4x128 .f32 := Host.absf main_arg2
  let main_cst_2 : FVec F S_ .f32 := constant S_ .f32 0x7F800000#32
  let main_v10 : FVec F S131072x4x128 .f32 := broadcastInDim S131072x4x128 ![] bcast_S_S131072x4x128 main_cst_2
  let main_v11 : IVec S131072x4x128 1 := cmpf .olt main_v9 main_v10
  let main_c_3 : IVec S_ 1 := constantI S_ 1 1#1
  let main_v12 : IVec S_ 1 := (fun x v => Host.reduce IntOp.andi x v reducesTo_S131072x4x128_S_d0_1_2 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_arg7 main_arg8 main_v13 main_v16
-- ==== Kernel.lean ====
abbrev S131072x128 : Shape := ⟨2, ![131072, 128]⟩
abbrev S131072x4x128 : Shape := ⟨3, ![131072, 4, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S1x384 : Shape := ⟨2, ![1, 384]⟩
abbrev S1x128 : Shape := ⟨2, ![1, 128]⟩
abbrev S2x131072x128 : Shape := ⟨3, ![2, 131072, 128]⟩
abbrev S1024x128 : Shape := ⟨2, ![1024, 128]⟩
abbrev S1024x4x128 : Shape := ⟨3, ![1024, 4, 128]⟩
abbrev S2x1024x128 : Shape := ⟨3, ![2, 1024, 128]⟩
abbrev S1024x384 : Shape := ⟨2, ![1024, 384]⟩
abbrev S1024x1x128 : Shape := ⟨3, ![1024, 1, 128]⟩
abbrev S1x1024x128 : Shape := ⟨3, ![1, 1024, 128]⟩

abbrev nBuf : Space → Nat
  | .hbm => 12
  | .vmem => 14
  | .smem => 0
  | _ => 0

abbrev bufTy : (tb : Table) → Fin (tcTables nBuf tb) → BufTy
  | .hbm, ⟨0, _⟩ => ⟨S131072x128, .f32⟩
  | .hbm, ⟨1, _⟩ => ⟨S131072x4x128, .f32⟩
  | .hbm, ⟨2, _⟩ => ⟨S131072x4x128, .f32⟩
  | .hbm, ⟨3, _⟩ => ⟨S128x384, .f32⟩
  | .hbm, ⟨4, _⟩ => ⟨S128x384, .f32⟩
  | .hbm, ⟨5, _⟩ => ⟨S384, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S1x384, .f32⟩
  | .hbm, ⟨10, _⟩ => ⟨S1x128, .f32⟩
  | .hbm, ⟨11, _⟩ => ⟨S2x131072x128, .f32⟩
  | .local _ .vmem, ⟨0, _⟩ => ⟨S1024x128, .f32⟩
  | .local _ .vmem, ⟨1, _⟩ => ⟨S1024x128, .f32⟩
  | .local _ .vmem, ⟨2, _⟩ => ⟨S1024x4x128, .f32⟩
  | .local _ .vmem, ⟨3, _⟩ => ⟨S1024x4x128, .f32⟩
  | .local _ .vmem, ⟨4, _⟩ => ⟨S1024x4x128, .f32⟩
  | .local _ .vmem, ⟨5, _⟩ => ⟨S1024x4x128, .f32⟩
  | .local _ .vmem, ⟨6, _⟩ => ⟨S128x384, .f32⟩
  | .local _ .vmem, ⟨7, _⟩ => ⟨S128x384, .f32⟩
  | .local _ .vmem, ⟨8, _⟩ => ⟨S1x384, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S2x1024x128, .f32⟩
  | .local _ .vmem, ⟨13, _⟩ => ⟨S2x1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S384_S1x384 : S384.ShapeCasts S1x384
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S1024x4x128_S1024x4x128_0_0_0 : ∀ a, (![0, 0, 0] : Fin 3 → Nat) a + S1024x4x128.size a ≤ S1024x4x128.size a
  h_S1024x4x128 : 0 < S1024x4x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  reduces_S1024x4x128_S1024x128 : S1024x4x128.Reduces [1] S1024x128
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S1024x4x128_o0_0_0_S1024x1x128 : S1024x4x128.Slices ![0, 0, 0] S1024x1x128
  shapeCasts_S1024x1x128_S1024x128 : S1024x1x128.ShapeCasts S1024x128
  broadcasts_S1x128_S1024x128 : S1x128.Broadcasts S1024x128
  slices_S1024x4x128_o0_1_0_S1024x1x128 : S1024x4x128.Slices ![0, 1, 0] S1024x1x128
  slices_S1024x4x128_o0_2_0_S1024x1x128 : S1024x4x128.Slices ![0, 2, 0] S1024x1x128
  slices_S1024x4x128_o0_3_0_S1024x1x128 : S1024x4x128.Slices ![0, 3, 0] S1024x1x128
  inb_S2x1024x128_S1x1024x128_0_0_0 : ∀ a, (![0, 0, 0] : Fin 3 → Nat) a + S1x1024x128.size a ≤ S2x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S2x1024x128_S1x1024x128_1_0_0 : ∀ a, (![1, 0, 0] : Fin 3 → Nat) a + S1x1024x128.size a ≤ S2x1024x128.size a
  dot_S1024x128_S128x384_S1024x384_1_0_0_1_n_n_wf : DotDims.WF S1024x128 S128x384 S1024x384 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4x128.size a ≤ S131072x4x128.size a
  hwx0_1 : ∀ i : grid0.Coords, EltTy.bits .f32 = 32 ∨ (Rect.block (s := S131072x4x128) S1024x4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4x128.size a ≤ S131072x4x128.size a
  hwx0_2 : ∀ i : grid0.Coords, EltTy.bits .f32 = 32 ∨ (Rect.block (s := S131072x4x128) S1024x4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .f32 = 32 ∨ (Rect.block (s := S128x384) S128x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1024x128.size a ≤ S2x131072x128.size a
  hwx0_9 : ∀ i : grid0.Coords, EltTy.bits .f32 = 32 ∨ (Rect.block (s := S2x131072x128) S2x1024x128.size (cc0_transform_9 i) (hinb0_9 i)).WholeWords (EltTy.packing .f32)

variable [Facts₀]

def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S2x1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072x4x128 : Shape := ⟨3, ![131072, 4, 128]⟩
abbrev S128x384 : Shape := ⟨2, ![128, 384]⟩
abbrev S384 : Shape := ⟨1, ![384]⟩
abbrev S128x128 : Shape := ⟨2, ![128, 128]⟩
abbrev S128 : Shape := ⟨1, ![128]⟩
abbrev S_ : Shape := ⟨0, ![]⟩
abbrev S131072x384 : Shape := ⟨2, ![131072, 384]⟩
abbrev S1x384 : Shape := ⟨2, ![1, 384]⟩
abbrev S131072x1x128 : Shape := ⟨3, ![131072, 1, 128]⟩
abbrev S1x1x128 : Shape := ⟨3, ![1, 1, 128]⟩
abbrev S1x131072x128 : Shape := ⟨3, ![1, 131072, 128]⟩
abbrev S2x131072x128 : Shape := ⟨3, ![2, 131072, 128]⟩

abbrev nBuf : Space → Nat
  | .hbm => 63
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x4x128, .f32⟩
  | .hbm, ⟨2, _⟩ => ⟨S131072x4x128, .f32⟩
  | .hbm, ⟨3, _⟩ => ⟨S128x384, .f32⟩
  | .hbm, ⟨4, _⟩ => ⟨S128x384, .f32⟩
  | .hbm, ⟨5, _⟩ => ⟨S384, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S131072x128, .f32⟩
  | .hbm, ⟨11, _⟩ => ⟨S131072x384, .f32⟩
  | .hbm, ⟨12, _⟩ => ⟨S131072x384, .f32⟩
  | .hbm, ⟨13, _⟩ => ⟨S131072x384, .f32⟩
  | .hbm, ⟨14, _⟩ => ⟨S1x384, .f32⟩
  | .hbm, ⟨15, _⟩ => ⟨S131072x384, .f32⟩
  | .hbm, ⟨16, _⟩ => ⟨S131072x384, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S_, .f32⟩
  | .hbm, ⟨23, _⟩ => ⟨S131072x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x1x128, .f32⟩
  | .hbm, ⟨39, _⟩ => ⟨S131072x4x128, .f32⟩
  | .hbm, ⟨40, _⟩ => ⟨S131072x4x128, .f32⟩
  | .hbm, ⟨41, _⟩ => ⟨S131072x4x128, .f32⟩
  | .hbm, ⟨42, _⟩ => ⟨S1x1x128, .f32⟩
  | .hbm, ⟨43, _⟩ => ⟨S131072x4x128, .f32⟩
  | .hbm, ⟨44, _⟩ => ⟨S131072x4x128, .f32⟩
  | .hbm, ⟨45, _⟩ => ⟨S131072x4x128, .f32⟩
  | .hbm, ⟨46, _⟩ => ⟨S131072x4x128, .f32⟩
  | .hbm, ⟨47, _⟩ => ⟨S_, .f32⟩
  | .hbm, ⟨48, _⟩ => ⟨S131072x4x128, .f32⟩
  | .hbm, ⟨49, _⟩ => ⟨S131072x4x128, .f32⟩
  | .hbm, ⟨50, _⟩ => ⟨S_, .f32⟩
  | .hbm, ⟨51, _⟩ => ⟨S131072x4x128, .f32⟩
  | .hbm, ⟨52, _⟩ => ⟨S131072x4x128, .f32⟩
  | .hbm, ⟨53, _⟩ => ⟨S131072x128, .f32⟩
  | .hbm, ⟨54, _⟩ => ⟨S131072x4x128, .f32⟩
  | .hbm, ⟨55, _⟩ => ⟨S_, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S1x131072x128, .f32⟩
  | .hbm, ⟨61, _⟩ => ⟨S1x131072x128, .f32⟩
  | .hbm, ⟨62, _⟩ => ⟨S2x131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  reducesTo_S131072x4x128_S131072x128_d1 : S131072x4x128.ReducesTo [1] S131072x128
  h_S_ : 0 < S_.numel
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  bcast_S_S131072x128 : S_.BroadcastsInDim S131072x128 (![] : Fin 0 → Fin S131072x128.rank)
  bcast_S131072x128_S131072x1x128_0_2 : S131072x128.BroadcastsInDim S131072x1x128 (![0, 2] : Fin 2 → Fin S131072x1x128.rank)
  bcast_S131072x1x128_S131072x4x128_0_1_2 : S131072x1x128.BroadcastsInDim S131072x4x128 (![0, 1, 2] : Fin 3 → Fin S131072x4x128.rank)
  bcast_S128_S1x1x128_2 : S128.BroadcastsInDim S1x1x128 (![2] : Fin 1 → Fin S1x1x128.rank)
  bcast_S1x1x128_S131072x4x128_0_1_2 : S1x1x128.BroadcastsInDim S131072x4x128 (![0, 1, 2] : Fin 3 → Fin S131072x4x128.rank)
  bcast_S_S131072x4x128 : S_.BroadcastsInDim S131072x4x128 (![] : Fin 0 → Fin S131072x4x128.rank)
  bcast_S131072x128_S1x131072x128_1_2 : S131072x128.BroadcastsInDim S1x131072x128 (![1, 2] : Fin 2 → Fin S1x131072x128.rank)
  concatenates_S1x131072x128_S1x131072x128_S2x131072x128_d0 : Shape.Concatenates [S1x131072x128, S1x131072x128] S2x131072x128 0
  dot_S131072x128_S128x384_S131072x384_1_0_0_1_n_n_wf : DotDims.WF S131072x128 S128x384 S131072x384 [1] [0] [0] [1] [] []
  dot_S131072x128_S128x128_S131072x128_1_0_0_1_n_n_wf : DotDims.WF S131072x128 S128x128 S131072x128 [1] [0] [0] [1] [] []
  dot_S131072x4x128_S128x128_S131072x4x128_2_0_01_1_n_n_wf : DotDims.WF S131072x4x128 S128x128 S131072x4x128 [2] [0] [0, 1] [1] [] []

variable [Facts₀]

def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x4x128_S128x128_S131072x4x128_2_0_01_1_n_n : DotDims S131072x4x128 S128x128 S131072x4x128 where
  lhsContracting := [2]
  rhsContracting := [0]
  lhsNonContracting := [0, 1]
  rhsNonContracting := [1]
  lhsBatch := []
  rhsBatch := []
  wf := dot_S131072x4x128_S128x128_S131072x4x128_2_0_01_1_n_n_wf

class Facts : Prop extends Facts₀ where

variable [Facts]
-- ==== Proof.Cell.lean ====
/-
  One node of a child-sum tree cell, on the extended reals.

  A node has an input row x (128 entries) and four children, each with a hidden row h c and a memory row cc c.
  With weights W, U (128 by 384), Wf, Uf (128 by 128) and biases b (384), bf (128):

    s k     = the sum over the four children c of h c k                      (the children's hidden rows added)
    g q     = (the sum over k of x k * W k q) + (the sum over k of s k * U k q) + b q        (384 gate pre-activations)
    f c j   = logistic ((the sum over k of x k * Wf k j) + (the sum over k of h c k * Uf k j) + bf j)
    cell j  = logistic (g j) * tanh (g (256 + j)) + the sum over the four children c of f c j * cc c j
    hid j   = logistic (g (128 + j)) * tanh (cell j)

  Columns 0..127 of g feed the input gate, 128..255 the output gate, 256..383 the update.
  The result stacks the two: plane 0 holds hid, plane 1 holds cell, for each of the 131072 nodes (the last definitions
  below read each node's rows out of the nine argument arrays).
  Nothing in the node formula mentions the number of nodes: a node's values depend on its own rows only, which is why a tile of
  nodes and the whole batch are the same function row by row.

  Two facts about sums are all the algebra the two programs differ by: adding four terms one after the other onto a
  start value is the start value plus their sum, and a sum started from zero is the sum. Both hold on the extended
  reals without any finiteness, since addition there is commutative and associative with zero neutral.
-/
import Idealize.ShloMosaic.PureOps.Ideal.Laws
import Idealize.ShloMosaic.Lib.ValueIdx

noncomputable section

open scoped BigOperators

namespace Cert.TreeCell

open Idealize.ShloMosaic Idealize.ShloMosaic.ValueIdx

/-- Column j of the input gate among the 384 gate columns. -/
abbrev colIn (j : Fin 128) : Fin 384 := ⟨j.val, by have := j.isLt; omega⟩
/-- Column j of the output gate among the 384 gate columns. -/
abbrev colOut (j : Fin 128) : Fin 384 := ⟨128 + j.val, by have := j.isLt; omega⟩
/-- Column j of the update among the 384 gate columns. -/
abbrev colUpd (j : Fin 128) : Fin 384 := ⟨256 + j.val, by have := j.isLt; omega⟩

/-- The children's hidden rows added, at entry k. -/
def childSum (h : Fin 4 → Fin 128 → EReal) (k : Fin 128) : EReal := ∑ c : Fin 4, h c k

/-- Gate pre-activation q of a node: its input row against W, its children's summed hidden row against U, the bias. -/
def gatePre (x : Fin 128 → EReal) (h : Fin 4 → Fin 128 → EReal) (W U : Fin 128 → Fin 384 → EReal)
    (b : Fin 384 → EReal) (q : Fin 384) : EReal :=
  ((∑ k : Fin 128, x k * W k q) + ∑ k : Fin 128, childSum h k * U k q) + b q

/-- The forget gate of one child with hidden row hk, at entry j. -/
def forget (x hk : Fin 128 → EReal) (Wf Uf : Fin 128 → Fin 128 → EReal) (bf : Fin 128 → EReal) (j : Fin 128) : EReal :=
  Ideal.logistic (((∑ k : Fin 128, x k * Wf k j) + ∑ k : Fin 128, hk k * Uf k j) + bf j)

/-- The node's new memory at entry j. -/
def cell (x : Fin 128 → EReal) (h cc : Fin 4 → Fin 128 → EReal) (W U : Fin 128 → Fin 384 → EReal) (b : Fin 384 → EReal)
    (Wf Uf : Fin 128 → Fin 128 → EReal) (bf : Fin 128 → EReal) (j : Fin 128) : EReal :=
  Ideal.logistic (gatePre x h W U b (colIn j)) * Ideal.tanh (gatePre x h W U b (colUpd j))
    + ∑ c : Fin 4, forget x (h c) Wf Uf bf j * cc c j

/-- The node's new hidden value at entry j. -/
def hidden (x : Fin 128 → EReal) (h cc : Fin 4 → Fin 128 → EReal) (W U : Fin 128 → Fin 384 → EReal) (b : Fin 384 → EReal)
    (Wf Uf : Fin 128 → Fin 128 → EReal) (bf : Fin 128 → EReal) (j : Fin 128) : EReal :=
  Ideal.logistic (gatePre x h W U b (colOut j)) * Ideal.tanh (cell x h cc W U b Wf Uf bf j)

/-- Plane s of the result at a node, entry j: the hidden value on plane 0, the memory on plane 1. -/
def out (x : Fin 128 → EReal) (h cc : Fin 4 → Fin 128 → EReal) (W U : Fin 128 → Fin 384 → EReal) (b : Fin 384 → EReal)
    (Wf Uf : Fin 128 → Fin 128 → EReal) (bf : Fin 128 → EReal) (s : Fin 2) (j : Fin 128) : EReal :=
  if s.val = 0 then hidden x h cc W U b Wf Uf bf j else cell x h cc W U b Wf Uf bf j

/-- The result at plane s, node n, entry j, of the nine argument arrays: node n's own rows go into the node formula. -/
def resultAt (a0 : (⟨2, ![131072, 128]⟩ : Shape).Idx → EReal) (a1 a2 : (⟨3, ![131072, 4, 128]⟩ : Shape).Idx → EReal)
    (a3 a4 : (⟨2, ![128, 384]⟩ : Shape).Idx → EReal) (a5 : (⟨1, ![384]⟩ : Shape).Idx → EReal)
    (a6 a7 : (⟨2, ![128, 128]⟩ : Shape).Idx → EReal) (a8 : (⟨1, ![128]⟩ : Shape).Idx → EReal)
    (s : Fin 2) (n : Fin 131072) (j : Fin 128) : EReal :=
  out (fun k => a0 (ix2 n k)) (fun c k => a1 (ix3 n c k)) (fun c k => a2 (ix3 n c k)) (fun k q => a3 (ix2 k q))
    (fun k q => a4 (ix2 k q)) (fun q => a5 (ix1 q)) (fun k j' => a6 (ix2 k j')) (fun k j' => a7 (ix2 k j'))
    (fun j' => a8 (ix1 j')) s j

/-- The whole [2, 131072, 128] result as one function of the nine argument arrays, index by index. -/
def result (a0 : (⟨2, ![131072, 128]⟩ : Shape).Idx → EReal) (a1 a2 : (⟨3, ![131072, 4, 128]⟩ : Shape).Idx → EReal)
    (a3 a4 : (⟨2, ![128, 384]⟩ : Shape).Idx → EReal) (a5 : (⟨1, ![384]⟩ : Shape).Idx → EReal)
    (a6 a7 : (⟨2, ![128, 128]⟩ : Shape).Idx → EReal) (a8 : (⟨1, ![128]⟩ : Shape).Idx → EReal) :
    (⟨3, ![2, 131072, 128]⟩ : Shape).Idx → EReal :=
  fun i => resultAt a0 a1 a2 a3 a4 a5 a6 a7 a8 (i 0) (i 1) (i 2)

/-- Four terms added one after the other onto a start value: the start value plus their sum. -/
theorem add_four (a : EReal) (t : Fin 4 → EReal) : (((a + t 0) + t 1) + t 2) + t 3 = a + ∑ c : Fin 4, t c := by
  rw [Fin.sum_univ_four]
  simp only [add_assoc]

/-- The quotient 1 / (1 + e^(-z)) spelt with a negation, an exponential, a sum and a division is the logistic function. -/
theorem logistic_spelt (z : EReal) : Ideal.div 1 (1 + Ideal.exp (-z)) = Ideal.logistic z := rfl

end Cert.TreeCell

end
-- ==== Proof.LibMidAxis.lean ====
/-
  A rank-3 array [a, n, b] and its middle axis, read at indices written by coordinates.

  A cast of [a, 1, b] to [a, b] drops the middle unit axis: at (i, j) it reads the operand at (i, 0, j).
  A float sum of [a, n, b] over its middle axis reads, at (i, j), the entries (i, c, j) for every c, and is their sum.
  Every statement is generic in the extents.
-/
import Idealize.ShloMosaic.Lib.ValueLayout
import Idealize.ShloMosaic.PureOps.Ideal.Laws

noncomputable section

open scoped BigOperators

namespace Cert.LibMidAxis

open Idealize.ShloMosaic Idealize.ShloMosaic.ValueIdx

variable {α : Type}

/-- An [a, 1, b] array cast to [a, b] reads, at (i, j), the operand at (i, 0, j). -/
theorem cast_drop_mid {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Over entry (i, j), the index a middle-axis reduction inserts coordinate c into is (i, c, j). -/
theorem lift_mid {a n b : ℕ} (h : (⟨3, ![a, n, b]⟩ : Shape).Reduces [1] ⟨2, ![a, b]⟩) (i : Fin a) (j : Fin b) (c : Fin n) :
    h.lift (ix2 i j) c = ix3 i c j :=
  funext fun d => Fin.ext (match d with | ⟨0, _⟩ => rfl | ⟨1, _⟩ => rfl | ⟨2, _⟩ => rfl)

/-- A float sum of [a, n, b] over its middle axis, at (i, j), is the sum over c of the entries (i, c, j). -/
theorem sum_mid {a n b : ℕ} (src : FVec Ideal ⟨3, ![a, n, b]⟩ .f32) (h : (⟨3, ![a, n, b]⟩ : Shape).Reduces [1] ⟨2, ![a, b]⟩)
    (hφ : FKind.Formats .f32) (hacc : (0x00000000#32 : BitVec 32) = FKind.add.neutral .f32 hφ) (i : Fin a) (j : Fin b) :
    multiReduction .add [1] ⟨2, ![a, b]⟩ src 0x00000000#32 h hφ hacc (ix2 i j) = ∑ c : Fin n, src (ix3 i c j) :=
  (Ideal.multiReduction_add_single src _ h hφ hacc (ix2 i j)).trans
    (Finset.sum_congr rfl fun c _ => congrArg src (lift_mid h i j c))

end Cert.LibMidAxis

end
-- ==== Proof.Tile.lean ====
/-
  A tile of 1024 nodes, entry by entry: what the kernel's body computes from the blocks it loads.

  The body multiplies whole blocks on the matrix unit. Read at an entry (r, q), a product of a [1024, 128] block with a
  [128, n] weight into a zero accumulator is the sum over k of the block at (r, k) times the weight at (k, q); the
  narrowing of the operands to bf16 changes nothing on the extended reals. The body takes child c's rows out of a
  [1024, 4, 128] block by cutting the middle axis at c and dropping the unit axis that is left: at (r, j) that is the
  block at (r, c, j). The bias is a one-row array broadcast down the tile.

  With these read at an entry, the 384 gate pre-activations of row r are the node formula's, and the memory and hidden
  values the body stores are the node formula's cell and hidden of row r's own rows: the body adds the four children's
  terms one after the other onto the input-gate term, which is that term plus their sum.
-/
import proofs.«166441_j27504970564118_1_alg».proof.Proof.Gen.KernelIdeal.Skeleton
import proofs.«166441_j27504970564118_1_alg».proof.Proof.Cell
import proofs.«166441_j27504970564118_1_alg».proof.Proof.LibMidAxis
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.TreeCell

/-! ## The two products read at an entry -/

theorem lhs_gates_0 (i : S1024x384.Idx) (q : dot_S1024x128_S128x384_S1024x384_1_0_0_1_n_n.contr.Idx) :
    (dot_S1024x128_S128x384_S1024x384_1_0_0_1_n_n.lhsIdx i q 0).val = (i 0).val := by
  unfold DotDims.lhsIdx
  rw [dif_neg (show ¬(0 : Fin S1024x128.rank) ∈ dot_S1024x128_S128x384_S1024x384_1_0_0_1_n_n.lhsBatch by decide), dif_pos (show (0 : Fin S1024x128.rank) ∈ dot_S1024x128_S128x384_S1024x384_1_0_0_1_n_n.lhsNonContracting by decide)]
  rfl
theorem lhs_gates_1 (i : S1024x384.Idx) (q : dot_S1024x128_S128x384_S1024x384_1_0_0_1_n_n.contr.Idx) :
    (dot_S1024x128_S128x384_S1024x384_1_0_0_1_n_n.lhsIdx i q 1).val = (q ⟨0, by decide⟩).val :=
  dot_S1024x128_S128x384_S1024x384_1_0_0_1_n_n.lhsIdx_val_of_single rfl i q
theorem rhs_gates_0 (i : S1024x384.Idx) (q : dot_S1024x128_S128x384_S1024x384_1_0_0_1_n_n.contr.Idx) :
    (dot_S1024x128_S128x384_S1024x384_1_0_0_1_n_n.rhsIdx i q 0).val = (q ⟨0, by decide⟩).val :=
  dot_S1024x128_S128x384_S1024x384_1_0_0_1_n_n.rhsIdx_val_of_single rfl i q
theorem rhs_gates_1 (i : S1024x384.Idx) (q : dot_S1024x128_S128x384_S1024x384_1_0_0_1_n_n.contr.Idx) :
    (dot_S1024x128_S128x384_S1024x384_1_0_0_1_n_n.rhsIdx i q 1).val = (i 1).val := by
  unfold DotDims.rhsIdx
  rw [dif_neg (show ¬(1 : Fin S128x384.rank) ∈ dot_S1024x128_S128x384_S1024x384_1_0_0_1_n_n.rhsBatch by decide), dif_pos (show (1 : Fin S128x384.rank) ∈ dot_S1024x128_S128x384_S1024x384_1_0_0_1_n_n.rhsNonContracting by decide)]
  rfl

/-- A [1024, 128] block times a [128, 384] weight into zero, at (r, q): the sum over k of block (r, k) times weight (k, q). -/
theorem prod_gates_apply {φ₁ φ₂ : FTy} (l : FVec Ideal S1024x128 φ₁) (w : FVec Ideal S128x384 φ₂) (r : Fin 1024) (q : Fin 384) :
    matmul dot_S1024x128_S128x384_S1024x384_1_0_0_1_n_n none l w (constant S1024x384 .f32 0x00000000#32) (ix2 r q)
      = ∑ k : Fin 128, l (ix2 r k) * w (ix2 k q) := by
  simp only [matmul]
  rw [Ideal.matmul_constant_zero_apply, ← Equiv.sum_comp (ValueIdx.contrEquiv1 dot_S1024x128_S128x384_S1024x384_1_0_0_1_n_n 128 rfl rfl).symm]
  refine Finset.sum_congr rfl fun k _ => ?_
  have hk := ValueIdx.contrEquiv1_symm_val dot_S1024x128_S128x384_S1024x384_1_0_0_1_n_n 128 rfl rfl k
  have el : dot_S1024x128_S128x384_S1024x384_1_0_0_1_n_n.lhsIdx (ix2 r q) ((ValueIdx.contrEquiv1 dot_S1024x128_S128x384_S1024x384_1_0_0_1_n_n 128 rfl rfl).symm k) = ix2 r k := funext fun a => Fin.ext (by
    match a with
    | ⟨0, _⟩ => exact lhs_gates_0 _ _
    | ⟨1, _⟩ => exact (lhs_gates_1 _ _).trans hk)
  have er : dot_S1024x128_S128x384_S1024x384_1_0_0_1_n_n.rhsIdx (ix2 r q) ((ValueIdx.contrEquiv1 dot_S1024x128_S128x384_S1024x384_1_0_0_1_n_n 128 rfl rfl).symm k) = ix2 k q := funext fun a => Fin.ext (by
    match a with
    | ⟨0, _⟩ => exact (rhs_gates_0 _ _).trans hk
    | ⟨1, _⟩ => exact rhs_gates_1 _ _)
  rw [el, er]

theorem lhs_sq_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_sq_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_sq_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_sq_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A [1024, 128] block times a [128, 128] weight into zero, at (r, j): the sum over k of block (r, k) times weight (k, j). -/
theorem prod_sq_apply {φ₁ φ₂ : FTy} (l : FVec Ideal S1024x128 φ₁) (w : FVec Ideal S128x128 φ₂) (r : Fin 1024) (j : Fin 128) :
    matmul dot_S1024x128_S128x128_S1024x128_1_0_0_1_n_n none l w (constant S1024x128 .f32 0x00000000#32) (ix2 r j)
      = ∑ k : Fin 128, l (ix2 r k) * w (ix2 k j) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 r j) ((ValueIdx.contrEquiv1 dot_S1024x128_S128x128_S1024x128_1_0_0_1_n_n 128 rfl rfl).symm k) = ix2 r k := funext fun a => Fin.ext (by
    match a with
    | ⟨0, _⟩ => exact lhs_sq_0 _ _
    | ⟨1, _⟩ => exact (lhs_sq_1 _ _).trans hk)
  have er : dot_S1024x128_S128x128_S1024x128_1_0_0_1_n_n.rhsIdx (ix2 r j) ((ValueIdx.contrEquiv1 dot_S1024x128_S128x128_S1024x128_1_0_0_1_n_n 128 rfl rfl).symm k) = ix2 k j := funext fun a => Fin.ext (by
    match a with
    | ⟨0, _⟩ => exact (rhs_sq_0 _ _).trans hk
    | ⟨1, _⟩ => exact rhs_sq_1 _ _)
  rw [el, er]

/-! ## One child's rows out of a [1024, 4, 128] block -/

/-- The block cut on its middle axis at child c, the unit axis dropped: at (r, j), the block at (r, c, j). -/
theorem child_rows_apply {α : Type} (o : Nat) (v : S1024x4x128.Idx → α) (hs : S1024x4x128.Slices ![0, o, 0] S1024x1x128)
    (hc : S1024x1x128.ShapeCasts S1024x128) (c : Fin 4) (ho : c.val = o) (r : Fin 1024) (j : Fin 128) :
    shapeCast S1024x128 (extractStridedSlice S1024x1x128 ![0, o, 0] v hs) hc (ix2 r j) = v (ix3 r c j) :=
  (LibMidAxis.cast_drop_mid _ hc r j).trans (slice3_axis1_apply o v hs r (0 : Fin 1) j c (by rw [ho]; rfl))

/-! ## The gate pre-activations of a tile row -/

/-- Row r of the tile, gate column q: the node formula's pre-activation of row r's own rows, the bias taken from the
    one-row array. -/
theorem gates_apply (v0 : Vec Ideal S1024x128 .f32) (v1 : Vec Ideal S1024x4x128 .f32) (v4 v6 : Vec Ideal S128x384 .f32)
    (v8 : Vec Ideal S1x384 .f32) (r : Fin 1024) (q : Fin 384) :
    k0_pay3 (F := Ideal) v0 v1 v4 v6 v8 (ix2 r q)
      = gatePre (fun k => v0 (ix2 r k)) (fun c k => v1 (ix3 r c k)) (fun k q' => v4 (ix2 k q')) (fun k q' => v6 (ix2 k q'))
          (fun q' => v8 (ix2 (0 : Fin 1) q')) q := by
  unfold k0_pay3 k0_pay2 gatePre childSum
  show (matmul _ none _ _ _ (ix2 r q) + matmul _ none _ _ _ (ix2 r q)) + broadcastTo S1024x384 _ _ (ix2 r q) = _
  rw [prod_gates_apply, prod_gates_apply, broadcastTo_1b_ab_apply, shapeCast_self]
  refine congrArg₂ (· + ·) (congrArg₂ (· + ·) rfl (Finset.sum_congr rfl fun k _ => congrArg (· * v6 (ix2 k q)) ?_)) rfl
  exact LibMidAxis.sum_mid v1 reduces_S1024x4x128_S1024x128 (.inl rfl) rfl r k

/-! ## The gates read off the pre-activations -/

/-- The input gate times the update, at row r, entry j. -/
theorem in_upd_apply (v0 : Vec Ideal S1024x128 .f32) (v1 : Vec Ideal S1024x4x128 .f32) (v4 v6 : Vec Ideal S128x384 .f32)
    (v8 : Vec Ideal S1x384 .f32) (r : Fin 1024) (j : Fin 128) :
    k0_pay8 (F := Ideal) v0 v1 v4 v6 v8 (ix2 r j)
      = Ideal.logistic (gatePre (fun k => v0 (ix2 r k)) (fun c k => v1 (ix3 r c k)) (fun k q' => v4 (ix2 k q')) (fun k q' => v6 (ix2 k q'))
          (fun q' => v8 (ix2 (0 : Fin 1) q')) (colIn j))
        * Ideal.tanh (gatePre (fun k => v0 (ix2 r k)) (fun c k => v1 (ix3 r c k)) (fun k q' => v4 (ix2 k q')) (fun k q' => v6 (ix2 k q'))
          (fun q' => v8 (ix2 (0 : Fin 1) q')) (colUpd j)) := by
  unfold k0_pay8
  exact congrArg₂ (· * ·)
    (congrArg Ideal.logistic ((slice2_axis1_apply 0 _ _ r j (colIn j) (Nat.zero_add _).symm).trans (gates_apply v0 v1 v4 v6 v8 r (colIn j))))
    (congrArg Ideal.tanh ((slice2_axis1_apply 256 _ _ r j (colUpd j) rfl).trans (gates_apply v0 v1 v4 v6 v8 r (colUpd j))))

/-- The output gate, at row r, entry j. -/
theorem out_gate_apply (v0 : Vec Ideal S1024x128 .f32) (v1 : Vec Ideal S1024x4x128 .f32) (v4 v6 : Vec Ideal S128x384 .f32)
    (v8 : Vec Ideal S1x384 .f32) (r : Fin 1024) (j : Fin 128) :
    k0_pay4 (F := Ideal) v0 v1 v4 v6 v8 (ix2 r j)
      = Ideal.logistic (gatePre (fun k => v0 (ix2 r k)) (fun c k => v1 (ix3 r c k)) (fun k q' => v4 (ix2 k q')) (fun k q' => v6 (ix2 k q'))
          (fun q' => v8 (ix2 (0 : Fin 1) q')) (colOut j)) := by
  unfold k0_pay4
  exact congrArg Ideal.logistic ((slice2_axis1_apply 128 _ _ r j (colOut j) rfl).trans (gates_apply v0 v1 v4 v6 v8 r (colOut j)))

/-- The input rows against the forget weight, at row r, entry j. -/
theorem x_wf_apply (v0 : Vec Ideal S1024x128 .f32) (v23 : Vec Ideal S128x128 .f32) (r : Fin 1024) (j : Fin 128) :
    k0_pay7 (F := Ideal) v0 v23 (ix2 r j) = ∑ k : Fin 128, v0 (ix2 r k) * v23 (ix2 k j) := by
  unfold k0_pay7 k0_pay2
  exact prod_sq_apply _ _ r j

/-! ## One child's contribution, and the two stored values -/

/-- Child c's forget gate times its memory, at row r, entry j: the block's own text for that child (cut at c, product
    with the child weight, bias row, logistic, times the child's memory rows) is the node formula's. -/
theorem child_contrib (o : Nat) (c : Fin 4) (ho : c.val = o) (x0 : Vec Ideal S1024x128 .f32) (x1 x2 : Vec Ideal S1024x4x128 .f32)
    (x6 x7 : Vec Ideal S128x128 .f32) (x8 : Vec Ideal S1x128 .f32)
    (hs : S1024x4x128.Slices ![0, o, 0] S1024x1x128) (hc : S1024x1x128.ShapeCasts S1024x128)
    (hlt : FTy.bits .bf16 < FTy.bits .f32) (hb : S1x128.Broadcasts S1024x128) (r : Fin 1024) (j : Fin 128) :
    mulf (logistic (addf (addf (k0_pay7 (F := Ideal) x0 x6)
        (matmul dot_S1024x128_S128x128_S1024x128_1_0_0_1_n_n none
          (truncf .bf16 (shapeCast S1024x128 (extractStridedSlice S1024x1x128 ![0, o, 0] x1 hs) hc) hlt) (k0_pay5 (F := Ideal) x7)
          (constant S1024x128 .f32 0x00000000#32)))
        (broadcastTo S1024x128 (k0_pay6 (F := Ideal) x8) hb)))
      (shapeCast S1024x128 (extractStridedSlice S1024x1x128 ![0, o, 0] x2 hs) hc) (ix2 r j)
      = forget (fun k => x0 (ix2 r k)) (fun k => x1 (ix3 r c k)) (fun k j' => x6 (ix2 k j')) (fun k j' => x7 (ix2 k j'))
          (fun j' => x8 (ix2 (0 : Fin 1) j')) j * x2 (ix3 r c j) := by
  unfold forget
  show Ideal.logistic ((k0_pay7 (F := Ideal) x0 x6 (ix2 r j) + matmul _ none _ (k0_pay5 (F := Ideal) x7) _ (ix2 r j))
      + broadcastTo S1024x128 (k0_pay6 (F := Ideal) x8) hb (ix2 r j))
    * shapeCast S1024x128 (extractStridedSlice S1024x1x128 ![0, o, 0] x2 hs) hc (ix2 r j) = _
  rw [x_wf_apply, prod_sq_apply, broadcastTo_1b_ab_apply, child_rows_apply o x2 hs hc c ho]
  unfold k0_pay5 k0_pay6
  rw [shapeCast_self]
  exact congrArg (fun s => Ideal.logistic (((∑ k : Fin 128, x0 (ix2 r k) * x6 (ix2 k j)) + s) + x8 (ix2 (0 : Fin 1) j)) * x2 (ix3 r c j))
    (Finset.sum_congr rfl fun k _ => congrArg (· * x7 (ix2 k j)) (child_rows_apply o x1 hs hc c ho r k))

/-- The new memory the body computes, at row r, entry j, is the node formula's cell of row r's own rows. -/
theorem cell_apply (x0 : Vec Ideal S1024x128 .f32) (x1 x2 : Vec Ideal S1024x4x128 .f32) (x3 x4 : Vec Ideal S128x384 .f32)
    (x5 : Vec Ideal S1x384 .f32) (x6 x7 : Vec Ideal S128x128 .f32) (x8 : Vec Ideal S1x128 .f32) (r : Fin 1024) (j : Fin 128) :
    k0_pay10 (F := Ideal) x1 x2 (k0_pay5 x7) (k0_pay6 x8) (k0_pay7 x0 x6) (k0_pay8 x0 x1 x3 x4 x5) (k0_pay9 x1)
        (constant S1024x128 .f32 0x00000000#32) (ix2 r j)
      = cell (fun k => x0 (ix2 r k)) (fun c k => x1 (ix3 r c k)) (fun c k => x2 (ix3 r c k)) (fun k q => x3 (ix2 k q))
          (fun k q => x4 (ix2 k q)) (fun q => x5 (ix2 (0 : Fin 1) q)) (fun k j' => x6 (ix2 k j')) (fun k j' => x7 (ix2 k j'))
          (fun j' => x8 (ix2 (0 : Fin 1) j')) j := by
  unfold k0_pay10 k0_pay9 cell
  show (((k0_pay8 (F := Ideal) x0 x1 x3 x4 x5 (ix2 r j) + mulf _ _ (ix2 r j)) + mulf _ _ (ix2 r j)) + mulf _ _ (ix2 r j))
      + mulf _ _ (ix2 r j) = _
  refine (congrArg₂ (· + ·) (congrArg₂ (· + ·) (congrArg₂ (· + ·) (congrArg₂ (· + ·) (in_upd_apply x0 x1 x3 x4 x5 r j)
      (child_contrib 0 0 rfl x0 x1 x2 x6 x7 x8 _ _ _ _ r j)) (child_contrib 1 1 rfl x0 x1 x2 x6 x7 x8 _ _ _ _ r j))
      (child_contrib 2 2 rfl x0 x1 x2 x6 x7 x8 _ _ _ _ r j)) (child_contrib 3 3 rfl x0 x1 x2 x6 x7 x8 _ _ _ _ r j)).trans ?_
  exact add_four _ (fun c => forget (fun k => x0 (ix2 r k)) (fun k => x1 (ix3 r c k)) (fun k j' => x6 (ix2 k j'))
    (fun k j' => x7 (ix2 k j')) (fun j' => x8 (ix2 (0 : Fin 1) j')) j * x2 (ix3 r c j))

/-- The piece stored as the memory rows, at (u, r, j). -/
theorem memory_piece_apply (x0 : Vec Ideal S1024x128 .f32) (x1 x2 : Vec Ideal S1024x4x128 .f32) (x3 x4 : Vec Ideal S128x384 .f32)
    (x5 : Vec Ideal S1x384 .f32) (x6 x7 : Vec Ideal S128x128 .f32) (x8 : Vec Ideal S1x128 .f32) (u : Fin 1) (r : Fin 1024) (j : Fin 128) :
    k0_pay1 (F := Ideal) (k0_pay10 x1 x2 (k0_pay5 x7) (k0_pay6 x8) (k0_pay7 x0 x6) (k0_pay8 x0 x1 x3 x4 x5) (k0_pay9 x1)
        (constant S1024x128 .f32 0x00000000#32)) (ix3 u r j)
      = cell (fun k => x0 (ix2 r k)) (fun c k => x1 (ix3 r c k)) (fun c k => x2 (ix3 r c k)) (fun k q => x3 (ix2 k q))
          (fun k q => x4 (ix2 k q)) (fun q => x5 (ix2 (0 : Fin 1) q)) (fun k j' => x6 (ix2 k j')) (fun k j' => x7 (ix2 k j'))
          (fun j' => x8 (ix2 (0 : Fin 1) j')) j := by
  unfold k0_pay1
  exact (shapeCast_ab_1ab_apply _ _ u r j).trans (cell_apply x0 x1 x2 x3 x4 x5 x6 x7 x8 r j)

/-- The piece stored as the hidden rows, at (u, r, j). -/
theorem hidden_piece_apply (x0 : Vec Ideal S1024x128 .f32) (x1 x2 : Vec Ideal S1024x4x128 .f32) (x3 x4 : Vec Ideal S128x384 .f32)
    (x5 : Vec Ideal S1x384 .f32) (x6 x7 : Vec Ideal S128x128 .f32) (x8 : Vec Ideal S1x128 .f32) (u : Fin 1) (r : Fin 1024) (j : Fin 128) :
    k0_pay11 (F := Ideal) x1 x2 (k0_pay4 x0 x1 x3 x4 x5) (k0_pay5 x7) (k0_pay6 x8) (k0_pay7 x0 x6) (k0_pay8 x0 x1 x3 x4 x5) (k0_pay9 x1)
        (constant S1024x128 .f32 0x00000000#32) (ix3 u r j)
      = TreeCell.hidden (fun k => x0 (ix2 r k)) (fun c k => x1 (ix3 r c k)) (fun c k => x2 (ix3 r c k)) (fun k q => x3 (ix2 k q))
          (fun k q => x4 (ix2 k q)) (fun q => x5 (ix2 (0 : Fin 1) q)) (fun k j' => x6 (ix2 k j')) (fun k j' => x7 (ix2 k j'))
          (fun j' => x8 (ix2 (0 : Fin 1) j')) j := by
  unfold k0_pay11 TreeCell.hidden
  refine (shapeCast_ab_1ab_apply _ _ u r j).trans ?_
  exact congrArg₂ (· * ·) (out_gate_apply x0 x1 x3 x4 x5 r j) (congrArg Ideal.tanh (cell_apply x0 x1 x2 x3 x4 x5 x6 x7 x8 r j))

end Cert.KernelIdeal.Tile

end
-- ==== Proof.Whole.lean ====
/-
  From tiles to the whole result.

  The grid has 128 points. Point t stages rows 1024 t to 1024 t + 1023 of the input, the children's hidden rows and
  the children's memory rows, the whole of each of the four weights and of the two one-row bias arrays, and writes
  back rows 1024 t to 1024 t + 1023 of both planes of the result. The body's two stores tile its output block, one
  plane each, and what they store is the node formula of the tile's rows (the tile module); a tile row r at point t
  is node 1024 t + r, whose rows the blocks hold. So what point t writes back is block t of the one function
  `result` of the nine arguments; the 128 blocks cover the result array, node n by point n / 1024; hence the array
  after the run is `result` of the arguments.
-/
import proofs.«166441_j27504970564118_1_alg».proof.Proof.Gen.KernelIdeal.Value
import proofs.«166441_j27504970564118_1_alg».proof.Proof.Tile
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.TreeCell
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The tile as one function of its nine blocks -/

/-- Plane s, row r, entry j of a tile: the node formula of row r of the blocks. -/
def tileAt (x0 : Vec Ideal S1024x128 .f32) (x1 x2 : Vec Ideal S1024x4x128 .f32) (x3 x4 : Vec Ideal S128x384 .f32)
    (x5 : Vec Ideal S1x384 .f32) (x6 x7 : Vec Ideal S128x128 .f32) (x8 : Vec Ideal S1x128 .f32)
    (s : Fin 2) (r : Fin 1024) (j : Fin 128) : EReal :=
  out (fun k => x0 (ix2 r k)) (fun c k => x1 (ix3 r c k)) (fun c k => x2 (ix3 r c k)) (fun k q => x3 (ix2 k q))
    (fun k q => x4 (ix2 k q)) (fun q => x5 (ix2 (0 : Fin 1) q)) (fun k j' => x6 (ix2 k j')) (fun k j' => x7 (ix2 k j'))
    (fun j' => x8 (ix2 (0 : Fin 1) j')) s j

/-- The [2, 1024, 128] output block as one function of the nine blocks. -/
def tile (x0 : Vec Ideal S1024x128 .f32) (x1 x2 : Vec Ideal S1024x4x128 .f32) (x3 x4 : Vec Ideal S128x384 .f32)
    (x5 : Vec Ideal S1x384 .f32) (x6 x7 : Vec Ideal S128x128 .f32) (x8 : Vec Ideal S1x128 .f32) :
    S2x1024x128.Idx → EReal := fun y => tileAt x0 x1 x2 x3 x4 x5 x6 x7 x8 (y 0) (y 1) (y 2)

/-- The store on plane 1 holds the tile's memory rows. -/
theorem piece_mem (x0 : Vec Ideal S1024x128 .f32) (x1 x2 : Vec Ideal S1024x4x128 .f32) (x3 x4 : Vec Ideal S128x384 .f32)
    (x5 : Vec Ideal S1x384 .f32) (x6 x7 : Vec Ideal S128x128 .f32) (x8 : Vec Ideal S1x128 .f32) (x : S1x1024x128.Idx) :
    k0_pay1 (F := Ideal) (k0_pay10 x1 x2 (k0_pay5 x7) (k0_pay6 x8) (k0_pay7 x0 x6) (k0_pay8 x0 x1 x3 x4 x5) (k0_pay9 x1) (constant S1024x128 .f32 0x00000000#32)) x = tile x0 x1 x2 x3 x4 x5 x6 x7 x8 (r0_7.emb x) := by
  obtain ⟨u, r, j, rfl⟩ : ∃ (u : Fin 1) (r : Fin 1024) (j : Fin 128), x = ix3 u r j := ⟨x 0, x 1, x 2, eq_ix3 x⟩
  rw [Tile.memory_piece_apply]
  have he : r0_7.emb (ix3 u r j) = ix3 (1 : Fin 2) r j := funext fun a => Fin.ext (by
    match a with
    | ⟨0, _⟩ => show 1 + 1 * u.val = 1; omega
    | ⟨1, _⟩ => show 0 + 1 * r.val = r.val; omega
    | ⟨2, _⟩ => show 0 + 1 * j.val = j.val; omega)
  rw [he]
  show _ = tileAt x0 x1 x2 x3 x4 x5 x6 x7 x8 (1 : Fin 2) r j
  unfold tileAt out
  rw [if_neg (show ¬((1 : Fin 2).val = 0) by decide)]

/-- The store on plane 0 holds the tile's hidden rows. -/
theorem piece_hid (x0 : Vec Ideal S1024x128 .f32) (x1 x2 : Vec Ideal S1024x4x128 .f32) (x3 x4 : Vec Ideal S128x384 .f32)
    (x5 : Vec Ideal S1x384 .f32) (x6 x7 : Vec Ideal S128x128 .f32) (x8 : Vec Ideal S1x128 .f32) (x : S1x1024x128.Idx) :
    k0_pay11 (F := Ideal) x1 x2 (k0_pay4 x0 x1 x3 x4 x5) (k0_pay5 x7) (k0_pay6 x8) (k0_pay7 x0 x6) (k0_pay8 x0 x1 x3 x4 x5) (k0_pay9 x1) (constant S1024x128 .f32 0x00000000#32) x = tile x0 x1 x2 x3 x4 x5 x6 x7 x8 (r0_6.emb x) := by
  obtain ⟨u, r, j, rfl⟩ : ∃ (u : Fin 1) (r : Fin 1024) (j : Fin 128), x = ix3 u r j := ⟨x 0, x 1, x 2, eq_ix3 x⟩
  rw [Tile.hidden_piece_apply]
  have he : r0_6.emb (ix3 u r j) = ix3 (0 : Fin 2) r j := funext fun a => Fin.ext (by
    match a with
    | ⟨0, _⟩ => show 0 + 1 * u.val = 0; omega
    | ⟨1, _⟩ => show 0 + 1 * r.val = r.val; omega
    | ⟨2, _⟩ => show 0 + 1 * j.val = j.val; omega)
  rw [he]
  show _ = tileAt x0 x1 x2 x3 x4 x5 x6 x7 x8 (0 : Fin 2) r j
  unfold tileAt out
  rw [if_pos (show ((0 : Fin 2).val = 0) from rfl)]

/-- What the body leaves in the output block: the tile, at every index, the two stores covering the block. -/
theorem block_is_tile (x0 : Vec Ideal S1024x128 .f32) (x1 x2 : Vec Ideal S1024x4x128 .f32) (x3 x4 : Vec Ideal S128x384 .f32)
    (x5 : Vec Ideal S1x384 .f32) (x6 x7 : Vec Ideal S128x128 .f32) (x8 : Vec Ideal S1x128 .f32) (y : S2x1024x128.Idx) :
    out0_9 (F := Ideal) x0 x1 x2 x3 x4 x5 x6 x7 x8 y = tile x0 x1 x2 x3 x4 x5 x6 x7 x8 y := by
  unfold out0_9
  simp only [View.ld_unit_zero (S := S1024x128) zeros2, View.ld_unit_zero (S := S1024x4x128) zeros3, View.ld_unit_zero (S := S128x384) zeros2,
    View.ld_unit_zero (S := S1x384) zeros2, View.ld_unit_zero (S := S128x128) zeros2, View.ld_unit_zero (S := S1x128) zeros2]
  refine View.canon_apply_of_pieces (Val := Elt Ideal) (S := S2x1024x128) (e := .f32) (tile x0 x1 x2 x3 x4 x5 x6 x7 x8) _ (fun p hp x => ?_) y (cover0_9 _ _ y)
  rcases List.mem_cons.mp hp with rfl | hp
  · exact piece_mem x0 x1 x2 x3 x4 x5 x6 x7 x8 x
  · rcases List.mem_cons.mp hp with rfl | hp
    · exact piece_hid x0 x1 x2 x3 x4 x5 x6 x7 x8 x
    · exact absurd hp List.not_mem_nil

/-! ## The index maps, decided over the grid -/

theorem index_map0 : ∀ t : Fin cfg0.N, win0_0.index t (0 : Fin 2) = t.val ∧ win0_0.index t (1 : Fin 2) = 0 :=
  (by decide +kernel : ∀ t : Fin grid0.N, _)
theorem index_map1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index_map2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index_map3 : ∀ t : Fin cfg0.N, win0_3.index t (0 : Fin 2) = 0 ∧ win0_3.index t (1 : Fin 2) = 0 :=
  (by decide +kernel : ∀ t : Fin grid0.N, _)
theorem index_map4 : ∀ t : Fin cfg0.N, win0_4.index t (0 : Fin 2) = 0 ∧ win0_4.index t (1 : Fin 2) = 0 :=
  (by decide +kernel : ∀ t : Fin grid0.N, _)
theorem index_map5 : ∀ t : Fin cfg0.N, win0_5.index t (0 : Fin 2) = 0 ∧ win0_5.index t (1 : Fin 2) = 0 :=
  (by decide +kernel : ∀ t : Fin grid0.N, _)
theorem index_map6 : ∀ t : Fin cfg0.N, win0_6.index t (0 : Fin 2) = 0 ∧ win0_6.index t (1 : Fin 2) = 0 :=
  (by decide +kernel : ∀ t : Fin grid0.N, _)
theorem index_map7 : ∀ t : Fin cfg0.N, win0_7.index t (0 : Fin 2) = 0 ∧ win0_7.index t (1 : Fin 2) = 0 :=
  (by decide +kernel : ∀ t : Fin grid0.N, _)
theorem index_map8 : ∀ t : Fin cfg0.N, win0_8.index t (0 : Fin 2) = 0 ∧ win0_8.index t (1 : Fin 2) = 0 :=
  (by decide +kernel : ∀ t : Fin grid0.N, _)
theorem index_map9 : ∀ t : Fin cfg0.N, win0_9.index t (0 : Fin 3) = 0 ∧ win0_9.index t (1 : Fin 3) = t.val ∧ win0_9.index t (2 : Fin 3) = 0 :=
  (by decide +kernel : ∀ t : Fin grid0.N, _)

/-! ## Each block as rows of its array -/

/-- Window 0's block at point t is rows 1024 t onward of the input. -/
theorem blk0_apply (c : Dev nD) (t : Fin cfg0.N) (r : Fin 1024) (k : Fin 128) (n : Fin 131072) (hn : n.val = t.val * 1024 + r.val) :
    (iblk m c 0 t : Vec Ideal S1024x128 .f32) (ix2 r k) = (m ((c : Thread nD τ).loc main_arg0) : S131072x128.Idx → Elt Ideal .f32) (ix2 n k) := by
  obtain ⟨e0, e1⟩ := index_map0 t
  refine Eq.trans ?_ (congrFun (V_main_arg0 m c) (ix2 n k))
  show V m c main_arg0 (((cfg0.win 0).blk t).view.emb (ix2 r k)) = V m c main_arg0 (ix2 n k)
  refine congrArg (V m c main_arg0) (funext fun a => Fin.ext ?_)
  match a with
  | ⟨0, _⟩ => show win0_0.index t (0 : Fin 2) * 1024 + 1 * r.val = n.val; rw [e0, hn]; omega
  | ⟨1, _⟩ => show win0_0.index t (1 : Fin 2) * 128 + 1 * k.val = k.val; rw [e1]; omega
/-- Window 1's block at point t is rows 1024 t onward of its array. -/
theorem blk1_apply (c : Dev nD) (t : Fin cfg0.N) (r : Fin 1024) (ch : Fin 4) (k : Fin 128) (n : Fin 131072) (hn : n.val = t.val * 1024 + r.val) :
    (iblk m c 1 t : Vec Ideal S1024x4x128 .f32) (ix3 r ch k) = (m ((c : Thread nD τ).loc main_arg1) : S131072x4x128.Idx → Elt Ideal .f32) (ix3 n ch k) := by
  obtain ⟨e0, e1, e2⟩ := index_map1 t
  refine Eq.trans ?_ (congrFun (V_main_arg1 m c) (ix3 n ch k))
  show V m c main_arg1 (((cfg0.win 1).blk t).view.emb (ix3 r ch k)) = V m c main_arg1 (ix3 n ch k)
  refine congrArg (V m c main_arg1) (funext fun a => Fin.ext ?_)
  match a with
  | ⟨0, _⟩ => show win0_1.index t (0 : Fin 3) * 1024 + 1 * r.val = n.val; rw [e0, hn]; omega
  | ⟨1, _⟩ => show win0_1.index t (1 : Fin 3) * 4 + 1 * ch.val = ch.val; rw [e1]; omega
  | ⟨2, _⟩ => show win0_1.index t (2 : Fin 3) * 128 + 1 * k.val = k.val; rw [e2]; omega
/-- Window 2's block at point t is rows 1024 t onward of its array. -/
theorem blk2_apply (c : Dev nD) (t : Fin cfg0.N) (r : Fin 1024) (ch : Fin 4) (k : Fin 128) (n : Fin 131072) (hn : n.val = t.val * 1024 + r.val) :
    (iblk m c 2 t : Vec Ideal S1024x4x128 .f32) (ix3 r ch k) = (m ((c : Thread nD τ).loc main_arg2) : S131072x4x128.Idx → Elt Ideal .f32) (ix3 n ch k) := by
  obtain ⟨e0, e1, e2⟩ := index_map2 t
  refine Eq.trans ?_ (congrFun (V_main_arg2 m c) (ix3 n ch k))
  show V m c main_arg2 (((cfg0.win 2).blk t).view.emb (ix3 r ch k)) = V m c main_arg2 (ix3 n ch k)
  refine congrArg (V m c main_arg2) (funext fun a => Fin.ext ?_)
  match a with
  | ⟨0, _⟩ => show win0_2.index t (0 : Fin 3) * 1024 + 1 * r.val = n.val; rw [e0, hn]; omega
  | ⟨1, _⟩ => show win0_2.index t (1 : Fin 3) * 4 + 1 * ch.val = ch.val; rw [e1]; omega
  | ⟨2, _⟩ => show win0_2.index t (2 : Fin 3) * 128 + 1 * k.val = k.val; rw [e2]; omega
/-- Window 3 stages the whole of its array at every point. -/
theorem blk3_apply (c : Dev nD) (t : Fin cfg0.N) (k : Fin 128) (q : Fin 384) :
    (iblk m c 3 t : Vec Ideal S128x384 .f32) (ix2 k q) = (m ((c : Thread nD τ).loc main_arg3) : S128x384.Idx → Elt Ideal .f32) (ix2 k q) := by
  obtain ⟨e0, e1⟩ := index_map3 t
  refine Eq.trans ?_ (congrFun (V_main_arg3 m c) (ix2 k q))
  show V m c main_arg3 (((cfg0.win 3).blk t).view.emb (ix2 k q)) = V m c main_arg3 (ix2 k q)
  refine congrArg (V m c main_arg3) (funext fun a => Fin.ext ?_)
  match a with
  | ⟨0, _⟩ => show win0_3.index t (0 : Fin 2) * 128 + 1 * k.val = k.val; rw [e0]; omega
  | ⟨1, _⟩ => show win0_3.index t (1 : Fin 2) * 384 + 1 * q.val = q.val; rw [e1]; omega
/-- Window 4 stages the whole of its array at every point. -/
theorem blk4_apply (c : Dev nD) (t : Fin cfg0.N) (k : Fin 128) (q : Fin 384) :
    (iblk m c 4 t : Vec Ideal S128x384 .f32) (ix2 k q) = (m ((c : Thread nD τ).loc main_arg4) : S128x384.Idx → Elt Ideal .f32) (ix2 k q) := by
  obtain ⟨e0, e1⟩ := index_map4 t
  refine Eq.trans ?_ (congrFun (V_main_arg4 m c) (ix2 k q))
  show V m c main_arg4 (((cfg0.win 4).blk t).view.emb (ix2 k q)) = V m c main_arg4 (ix2 k q)
  refine congrArg (V m c main_arg4) (funext fun a => Fin.ext ?_)
  match a with
  | ⟨0, _⟩ => show win0_4.index t (0 : Fin 2) * 128 + 1 * k.val = k.val; rw [e0]; omega
  | ⟨1, _⟩ => show win0_4.index t (1 : Fin 2) * 384 + 1 * q.val = q.val; rw [e1]; omega
/-- Window 5 stages the one-row array the host made of the bias vector: entry (0, q) is the vector's entry q. -/
theorem blk5_apply (c : Dev nD) (t : Fin cfg0.N) (q : Fin 384) :
    (iblk m c 5 t : Vec Ideal S1x384 .f32) (ix2 (0 : Fin 1) q) = (m ((c : Thread nD τ).loc main_arg5) : S384.Idx → Elt Ideal .f32) (ix1 q) := by
  obtain ⟨e0, e1⟩ := index_map5 t
  have hv : (V m c main_v0 : S1x384.Idx → Elt Ideal .f32) = shapeCast S1x384 (m ((c : Thread nD τ).loc main_arg5)) shapeCasts_S384_S1x384 := by
    dsimp only [V, hostOps0]; after_results; rfl
  show V m c main_v0 (((cfg0.win 5).blk t).view.emb (ix2 (0 : Fin 1) q)) = _
  have he : ((cfg0.win 5).blk t).view.emb (ix2 (0 : Fin 1) q) = ix2 (0 : Fin 1) q := funext fun a => Fin.ext (by
    match a with
    | ⟨0, _⟩ => show win0_5.index t (0 : Fin 2) * 1 + 1 * (0 : Fin 1).val = (0 : Fin 1).val; rw [e0]; rfl
    | ⟨1, _⟩ => show win0_5.index t (1 : Fin 2) * 384 + 1 * q.val = q.val; rw [e1]; omega)
  rw [he, hv]
  exact shapeCast_a_1a_apply _ _ (0 : Fin 1) q
/-- Window 6 stages the whole of its array at every point. -/
theorem blk6_apply (c : Dev nD) (t : Fin cfg0.N) (k : Fin 128) (q : Fin 128) :
    (iblk m c 6 t : Vec Ideal S128x128 .f32) (ix2 k q) = (m ((c : Thread nD τ).loc main_arg6) : S128x128.Idx → Elt Ideal .f32) (ix2 k q) := by
  obtain ⟨e0, e1⟩ := index_map6 t
  refine Eq.trans ?_ (congrFun (V_main_arg6 m c) (ix2 k q))
  show V m c main_arg6 (((cfg0.win 6).blk t).view.emb (ix2 k q)) = V m c main_arg6 (ix2 k q)
  refine congrArg (V m c main_arg6) (funext fun a => Fin.ext ?_)
  match a with
  | ⟨0, _⟩ => show win0_6.index t (0 : Fin 2) * 128 + 1 * k.val = k.val; rw [e0]; omega
  | ⟨1, _⟩ => show win0_6.index t (1 : Fin 2) * 128 + 1 * q.val = q.val; rw [e1]; omega
/-- Window 7 stages the whole of its array at every point. -/
theorem blk7_apply (c : Dev nD) (t : Fin cfg0.N) (k : Fin 128) (q : Fin 128) :
    (iblk m c 7 t : Vec Ideal S128x128 .f32) (ix2 k q) = (m ((c : Thread nD τ).loc main_arg7) : S128x128.Idx → Elt Ideal .f32) (ix2 k q) := by
  obtain ⟨e0, e1⟩ := index_map7 t
  refine Eq.trans ?_ (congrFun (V_main_arg7 m c) (ix2 k q))
  show V m c main_arg7 (((cfg0.win 7).blk t).view.emb (ix2 k q)) = V m c main_arg7 (ix2 k q)
  refine congrArg (V m c main_arg7) (funext fun a => Fin.ext ?_)
  match a with
  | ⟨0, _⟩ => show win0_7.index t (0 : Fin 2) * 128 + 1 * k.val = k.val; rw [e0]; omega
  | ⟨1, _⟩ => show win0_7.index t (1 : Fin 2) * 128 + 1 * q.val = q.val; rw [e1]; omega
/-- Window 8 stages the one-row array the host made of the bias vector: entry (0, q) is the vector's entry q. -/
theorem blk8_apply (c : Dev nD) (t : Fin cfg0.N) (q : Fin 128) :
    (iblk m c 8 t : Vec Ideal S1x128 .f32) (ix2 (0 : Fin 1) q) = (m ((c : Thread nD τ).loc main_arg8) : S128.Idx → Elt Ideal .f32) (ix1 q) := by
  obtain ⟨e0, e1⟩ := index_map8 t
  have hv : (V m c main_v1 : S1x128.Idx → Elt Ideal .f32) = shapeCast S1x128 (m ((c : Thread nD τ).loc main_arg8)) shapeCasts_S128_S1x128 := by
    dsimp only [V, hostOps0]; after_results; rfl
  show V m c main_v1 (((cfg0.win 8).blk t).view.emb (ix2 (0 : Fin 1) q)) = _
  have he : ((cfg0.win 8).blk t).view.emb (ix2 (0 : Fin 1) q) = ix2 (0 : Fin 1) q := funext fun a => Fin.ext (by
    match a with
    | ⟨0, _⟩ => show win0_8.index t (0 : Fin 2) * 1 + 1 * (0 : Fin 1).val = (0 : Fin 1).val; rw [e0]; rfl
    | ⟨1, _⟩ => show win0_8.index t (1 : Fin 2) * 128 + 1 * q.val = q.val; rw [e1]; omega)
  rw [he, hv]
  exact shapeCast_a_1a_apply _ _ (0 : Fin 1) q

/-! ## What a point writes back, the cover, the run -/

/-- The tile of point t's blocks, at a block index y, is `result` of the arguments at the array index that has y's plane
    and entry and node 1024 t + (y's row). -/
theorem tile_eq_result (c : Dev nD) (t : Fin cfg0.N) (y : S2x1024x128.Idx) (i : S2x131072x128.Idx)
    (h0 : (i 0).val = (y 0).val) (h1 : (i 1).val = t.val * 1024 + (y 1).val) (h2 : (i 2).val = (y 2).val) :
    tile (iblk m c 0 t) (iblk m c 1 t) (iblk m c 2 t) (iblk m c 3 t) (iblk m c 4 t) (iblk m c 5 t) (iblk m c 6 t) (iblk m c 7 t) (iblk m c 8 t) y = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  obtain ⟨s, r, j, rfl⟩ : ∃ (s : Fin 2) (r : Fin 1024) (j : Fin 128), y = ix3 s r j := ⟨y 0, y 1, y 2, eq_ix3 y⟩
  obtain ⟨s', n, j', rfl⟩ : ∃ (s' : Fin 2) (n : Fin 131072) (j' : Fin 128), i = ix3 s' n j' := ⟨i 0, i 1, i 2, eq_ix3 i⟩
  obtain rfl : s' = s := Fin.ext h0
  obtain rfl : j' = j := Fin.ext h2
  have hn : n.val = t.val * 1024 + r.val := h1
  show tileAt (iblk m c 0 t) (iblk m c 1 t) (iblk m c 2 t) (iblk m c 3 t) (iblk m c 4 t) (iblk m c 5 t) (iblk m c 6 t) (iblk m c 7 t) (iblk m c 8 t) s' r j' = resultAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) s' n j'
  unfold tileAt resultAt
  have e0 : (fun k : Fin 128 => (iblk m c 0 t : Vec Ideal S1024x128 .f32) (ix2 r k)) = fun k => (m ((c : Thread nD τ).loc main_arg0) : S131072x128.Idx → Elt Ideal .f32) (ix2 n k) :=
    funext fun k => blk0_apply m c t r k n hn
  have e1 : (fun (ch : Fin 4) (k : Fin 128) => (iblk m c 1 t : Vec Ideal S1024x4x128 .f32) (ix3 r ch k)) = fun ch k => (m ((c : Thread nD τ).loc main_arg1) : S131072x4x128.Idx → Elt Ideal .f32) (ix3 n ch k) :=
    funext fun ch => funext fun k => blk1_apply m c t r ch k n hn
  have e2 : (fun (ch : Fin 4) (k : Fin 128) => (iblk m c 2 t : Vec Ideal S1024x4x128 .f32) (ix3 r ch k)) = fun ch k => (m ((c : Thread nD τ).loc main_arg2) : S131072x4x128.Idx → Elt Ideal .f32) (ix3 n ch k) :=
    funext fun ch => funext fun k => blk2_apply m c t r ch k n hn
  have e3 : (fun (k : Fin 128) (q : Fin 384) => (iblk m c 3 t : Vec Ideal S128x384 .f32) (ix2 k q)) = fun k q => (m ((c : Thread nD τ).loc main_arg3) : S128x384.Idx → Elt Ideal .f32) (ix2 k q) :=
    funext fun k => funext fun q => blk3_apply m c t k q
  have e4 : (fun (k : Fin 128) (q : Fin 384) => (iblk m c 4 t : Vec Ideal S128x384 .f32) (ix2 k q)) = fun k q => (m ((c : Thread nD τ).loc main_arg4) : S128x384.Idx → Elt Ideal .f32) (ix2 k q) :=
    funext fun k => funext fun q => blk4_apply m c t k q
  have e5 : (fun q : Fin 384 => (iblk m c 5 t : Vec Ideal S1x384 .f32) (ix2 (0 : Fin 1) q)) = fun q => (m ((c : Thread nD τ).loc main_arg5) : S384.Idx → Elt Ideal .f32) (ix1 q) :=
    funext fun q => blk5_apply m c t q
  have e6 : (fun (k : Fin 128) (q : Fin 128) => (iblk m c 6 t : Vec Ideal S128x128 .f32) (ix2 k q)) = fun k q => (m ((c : Thread nD τ).loc main_arg6) : S128x128.Idx → Elt Ideal .f32) (ix2 k q) :=
    funext fun k => funext fun q => blk6_apply m c t k q
  have e7 : (fun (k : Fin 128) (q : Fin 128) => (iblk m c 7 t : Vec Ideal S128x128 .f32) (ix2 k q)) = fun k q => (m ((c : Thread nD τ).loc main_arg7) : S128x128.Idx → Elt Ideal .f32) (ix2 k q) :=
    funext fun k => funext fun q => blk7_apply m c t k q
  have e8 : (fun q : Fin 128 => (iblk m c 8 t : Vec Ideal S1x128 .f32) (ix2 (0 : Fin 1) q)) = fun q => (m ((c : Thread nD τ).loc main_arg8) : S128.Idx → Elt Ideal .f32) (ix1 q) :=
    funext fun q => blk8_apply m c t q
  have c0 := congrArg out e0
  have c1 := congr c0 e1
  have c2 := congr c1 e2
  have c3 := congr c2 e3
  have c4 := congr c3 e4
  have c5 := congr c4 e5
  have c6 := congr c5 e6
  have c7 := congr c6 e7
  have c8 := congr c7 e8
  exact congrFun (congrFun c8 s') j'

/-- WHAT POINT t WRITES BACK is block t of `result` of the arguments. -/
theorem point_writes_block (c : Dev nD) (t : Fin cfg0.N) :
    (dats m 0 c).flushed 9 t = ((cfg0.win 9).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨e0, e1, e2⟩ := index_map9 t
  rw [flushed9]
  funext y
  show out0_9 (iblk m c 0 t) (iblk m c 1 t) (iblk m c 2 t) (iblk m c 3 t) (iblk m c 4 t) (iblk m c 5 t) (iblk m c 6 t) (iblk m c 7 t) (iblk m c 8 t) y = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y)
  refine (block_is_tile _ _ _ _ _ _ _ _ _ y).trans ?_
  refine tile_eq_result m c t y _ ?_ ?_ ?_
  · show win0_9.index t (0 : Fin 3) * 2 + 1 * (y 0).val = (y 0).val; rw [e0]; omega
  · show win0_9.index t (1 : Fin 3) * 1024 + 1 * (y 1).val = t.val * 1024 + (y 1).val; rw [e1]; omega
  · show win0_9.index t (2 : Fin 3) * 128 + 1 * (y 2).val = (y 2).val; rw [e2]; omega

/-- An index of the result is in point t's block iff each coordinate is in the block's range on its axis. -/
theorem mem_point_block (t : Fin cfg0.N) (i : S2x131072x128.Idx) :
    i ∈ ((cfg0.win 9).blk t).view.set ↔ ∀ a : Fin 3, win0_9.index t a * S2x1024x128.size a ≤ (i a).val ∧ (i a).val < win0_9.index t a * S2x1024x128.size a + S2x1024x128.size a := by
  show i ∈ ((View.whole main_v2).slice (win0_9.rect t)).set ↔ _
  rw [View.set_slice_whole, Rect.mem_set_unit]
  exact Iff.rfl

/-- Every index of the result is in some point's block: node n in point n / 1024's. -/
theorem every_node_covered (i : S2x131072x128.Idx) : ∃ t : Fin cfg0.N, (cfg0.win 9).flush t = true ∧ i ∈ ((cfg0.win 9).blk t).view.set := by
  have h0 : (i 0).val < 2 := (i 0).isLt
  have h1 : (i 1).val < 131072 := (i 1).isLt
  have h2 : (i 2).val < 128 := (i 2).isLt
  have hN : cfg0.N = 128 := N_0
  have ht : (i 1).val / 1024 < cfg0.N := by rw [hN]; omega
  obtain ⟨e0, e1, e2⟩ := index_map9 ⟨(i 1).val / 1024, ht⟩
  refine ⟨⟨(i 1).val / 1024, ht⟩, flush0_9 _, ?_⟩
  rw [mem_point_block]
  intro a
  match a with
  | ⟨0, _⟩ => show win0_9.index ⟨(i 1).val / 1024, ht⟩ (0 : Fin 3) * 2 ≤ (i 0).val ∧ (i 0).val < win0_9.index ⟨(i 1).val / 1024, ht⟩ (0 : Fin 3) * 2 + 2; rw [e0]; omega
  | ⟨1, _⟩ => show win0_9.index ⟨(i 1).val / 1024, ht⟩ (1 : Fin 3) * 1024 ≤ (i 1).val ∧ (i 1).val < win0_9.index ⟨(i 1).val / 1024, ht⟩ (1 : Fin 3) * 1024 + 1024; rw [e1]; show (i 1).val / 1024 * 1024 ≤ (i 1).val ∧ (i 1).val < (i 1).val / 1024 * 1024 + 1024; omega
  | ⟨2, _⟩ => show win0_9.index ⟨(i 1).val / 1024, ht⟩ (2 : Fin 3) * 128 ≤ (i 2).val ∧ (i 2).val < win0_9.index ⟨(i 1).val / 1024, ht⟩ (2 : Fin 3) * 128 + 128; rw [e2]; omega

/-- THE ARRAY after the run is `result` of the arguments. -/
theorem array_is_result (c : Dev nD) : (dats m 0 c).arrAt 9 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => point_writes_block m c t) every_node_covered

/-- The kernel's run, read: the result array at `result` of the arguments, the arguments unchanged. -/
theorem run_result : θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (array_is_result m c), (h c).2⟩) (run_blocks m ρ)

end Cert.KernelIdeal.Whole

end
-- ==== Proof.Stages.lean ====
/-
  The reference, stage by stage, is the node formula of each node's rows.

  The reference works on whole arrays: it sums the children's hidden rows, forms the 384 gate pre-activations with two
  products and a broadcast bias, cuts them into three column ranges, spells each sigmoid as 1 / (1 + e^(-z)), forms the
  four forget gates at once with one product over the [131072, 4, 128] array, sums the gated child memories over the
  children from zero, and stacks hidden and memory. Read at a node n and an entry, each stage depends on node n's own
  rows only, and the whole is `result` of the arguments: the sums started from zero are the sums, and the spelt
  quotient is the logistic function.
-/
import proofs.«166441_j27504970564118_1_alg».proof.Proof.Gen.ReferenceIdeal.Read
import proofs.«166441_j27504970564118_1_alg».proof.Proof.Cell
import Idealize.ShloMosaic.Lib.Pipeline.Value
import Idealize.ShloMosaic.Lib.ValueIdx
import Idealize.ShloMosaic.PureOps.Ideal.Laws

noncomputable section

open scoped BigOperators

namespace Cert.ReferenceIdeal.Stages

open Cert.ReferenceIdeal Cert.ReferenceIdeal.Read Idealize.ShloMosaic Idealize.ShloMosaic.ValueIdx Cert.TreeCell

/-- The word of 1.0 denotes 1. -/
theorem one_word : (FloatOps.ofBits .f32 0x3F800000#32 : Ideal .f32) = (1 : EReal) :=
  IdealRules.sign_bit.ideal_onePat .f32

/-- The word of 0.0 denotes 0. -/
theorem zero_word : (FloatOps.ofBits .f32 0x00000000#32 : Ideal .f32) = (0 : EReal) :=
  Ideal.ofBits_zero_f32

/-- The children's hidden rows summed from zero, at node n, entry k. -/
theorem child_sum_apply (x1 : (⟨S131072x4x128, .f32⟩ : BufTy).Contents (Elt Ideal)) (n : Fin 131072) (k : Fin 128) :
    val_main_v0 (F := Ideal) x1 (ix2 n k) = childSum (fun c k' => x1 (ix3 n c k')) k := by
  have e : ∀ c : Fin 4, idx_main_v0 (ix2 n k) c = ix3 n c k := fun c => funext fun a => Fin.ext (by match a with | ⟨0, _⟩ => rfl | ⟨1, _⟩ => rfl | ⟨2, _⟩ => rfl)
  rw [val_main_v0_apply, val_main_cst_apply, zero_word, zero_add]
  simp only [e]
  rfl

/-- The gate pre-activations, at node n, column q. -/
theorem gates_apply (x0 : (⟨S131072x128, .f32⟩ : BufTy).Contents (Elt Ideal)) (x1 : (⟨S131072x4x128, .f32⟩ : BufTy).Contents (Elt Ideal)) (x3 x4 : (⟨S128x384, .f32⟩ : BufTy).Contents (Elt Ideal)) (x5 : (⟨S384, .f32⟩ : BufTy).Contents (Elt Ideal)) (n : Fin 131072) (q : Fin 384) :
    val_main_v6 (F := Ideal) x0 x1 x3 x4 x5 (ix2 n q) = gatePre (fun k => x0 (ix2 n k)) (fun c k => x1 (ix3 n c k)) (fun k q => x3 (ix2 k q)) (fun k q => x4 (ix2 k q)) (fun q => x5 (ix1 q)) q := by
  have el1 : ∀ k : Fin 128, lidx_main_v1 (ix2 n q) k = ix2 n k := fun k => funext fun a => Fin.ext (by match a with | ⟨0, _⟩ => rfl | ⟨1, _⟩ => rfl)
  have er1 : ∀ k : Fin 128, ridx_main_v1 (ix2 n q) k = ix2 k q := fun k => funext fun a => Fin.ext (by match a with | ⟨0, _⟩ => rfl | ⟨1, _⟩ => rfl)
  have el2 : ∀ k : Fin 128, lidx_main_v2 (ix2 n q) k = ix2 n k := fun k => funext fun a => Fin.ext (by match a with | ⟨0, _⟩ => rfl | ⟨1, _⟩ => rfl)
  have er2 : ∀ k : Fin 128, ridx_main_v2 (ix2 n q) k = ix2 k q := fun k => funext fun a => Fin.ext (by match a with | ⟨0, _⟩ => rfl | ⟨1, _⟩ => rfl)
  have e5 : idx_main_v4 (idx_main_v5 (ix2 n q)) = ix1 q := funext fun a => Fin.ext (by match a with | ⟨0, _⟩ => rfl)
  rw [val_main_v6_apply, val_main_v3_apply, val_main_v1_apply, val_main_v2_apply, val_main_v5_apply, val_main_v4_apply]
  simp only [el1, er1, el2, er2, e5, child_sum_apply]
  rfl

/-- The input gate, at node n, entry j. -/
theorem in_gate_apply (x0 : (⟨S131072x128, .f32⟩ : BufTy).Contents (Elt Ideal)) (x1 : (⟨S131072x4x128, .f32⟩ : BufTy).Contents (Elt Ideal)) (x3 x4 : (⟨S128x384, .f32⟩ : BufTy).Contents (Elt Ideal)) (x5 : (⟨S384, .f32⟩ : BufTy).Contents (Elt Ideal)) (n : Fin 131072) (j : Fin 128) :
    val_main_v15 (F := Ideal) x0 x1 x3 x4 x5 (ix2 n j) = Ideal.logistic (gatePre (fun k => x0 (ix2 n k)) (fun c k => x1 (ix3 n c k)) (fun k q => x3 (ix2 k q)) (fun k q => x4 (ix2 k q)) (fun q => x5 (ix1 q)) (colIn j)) := by
  have e : idx_main_v7 (ix2 n j) = ix2 n (colIn j) := funext fun a => Fin.ext (by match a with | ⟨0, _⟩ => rfl | ⟨1, _⟩ => rfl)
  rw [val_main_v15_apply, val_main_v14_apply, val_main_cst_1_apply, val_main_v13_apply, val_main_v12_apply, val_main_cst_0_apply,
    val_main_v11_apply, val_main_v10_apply, val_main_v7_apply, e, gates_apply, one_word]
  rfl

/-- The output gate, at node n, entry j. -/
theorem out_gate_apply (x0 : (⟨S131072x128, .f32⟩ : BufTy).Contents (Elt Ideal)) (x1 : (⟨S131072x4x128, .f32⟩ : BufTy).Contents (Elt Ideal)) (x3 x4 : (⟨S128x384, .f32⟩ : BufTy).Contents (Elt Ideal)) (x5 : (⟨S384, .f32⟩ : BufTy).Contents (Elt Ideal)) (n : Fin 131072) (j : Fin 128) :
    val_main_v21 (F := Ideal) x0 x1 x3 x4 x5 (ix2 n j) = Ideal.logistic (gatePre (fun k => x0 (ix2 n k)) (fun c k => x1 (ix3 n c k)) (fun k q => x3 (ix2 k q)) (fun k q => x4 (ix2 k q)) (fun q => x5 (ix1 q)) (colOut j)) := by
  have e : idx_main_v8 (ix2 n j) = ix2 n (colOut j) := funext fun a => Fin.ext (by match a with | ⟨0, _⟩ => rfl | ⟨1, _⟩ => rfl)
  rw [val_main_v21_apply, val_main_v20_apply, val_main_cst_3_apply, val_main_v19_apply, val_main_v18_apply, val_main_cst_2_apply,
    val_main_v17_apply, val_main_v16_apply, val_main_v8_apply, e, gates_apply, one_word]
  rfl

/-- The update, at node n, entry j. -/
theorem update_apply (x0 : (⟨S131072x128, .f32⟩ : BufTy).Contents (Elt Ideal)) (x1 : (⟨S131072x4x128, .f32⟩ : BufTy).Contents (Elt Ideal)) (x3 x4 : (⟨S128x384, .f32⟩ : BufTy).Contents (Elt Ideal)) (x5 : (⟨S384, .f32⟩ : BufTy).Contents (Elt Ideal)) (n : Fin 131072) (j : Fin 128) :
    val_main_v22 (F := Ideal) x0 x1 x3 x4 x5 (ix2 n j) = Ideal.tanh (gatePre (fun k => x0 (ix2 n k)) (fun c k => x1 (ix3 n c k)) (fun k q => x3 (ix2 k q)) (fun k q => x4 (ix2 k q)) (fun q => x5 (ix1 q)) (colUpd j)) := by
  have e : idx_main_v9 (ix2 n j) = ix2 n (colUpd j) := funext fun a => Fin.ext (by match a with | ⟨0, _⟩ => rfl | ⟨1, _⟩ => rfl)
  rw [val_main_v22_apply, val_main_v9_apply, e, gates_apply]
  rfl

/-- Child c's forget gate, at node n, entry j. -/
theorem forget_apply (x0 : (⟨S131072x128, .f32⟩ : BufTy).Contents (Elt Ideal)) (x1 : (⟨S131072x4x128, .f32⟩ : BufTy).Contents (Elt Ideal)) (x6 x7 : (⟨S128x128, .f32⟩ : BufTy).Contents (Elt Ideal)) (x8 : (⟨S128, .f32⟩ : BufTy).Contents (Elt Ideal))
    (n : Fin 131072) (c : Fin 4) (j : Fin 128) :
    val_main_v36 (F := Ideal) x0 x1 x6 x7 x8 (ix3 n c j)
      = forget (fun k => x0 (ix2 n k)) (fun k => x1 (ix3 n c k)) (fun k j' => x6 (ix2 k j')) (fun k j' => x7 (ix2 k j')) (fun j' => x8 (ix1 j')) j := by
  have e24 : idx_main_v24 (idx_main_v26 (ix3 n c j)) = ix2 n j := funext fun a => Fin.ext (by match a with | ⟨0, _⟩ => rfl | ⟨1, _⟩ => rfl)
  have el23 : ∀ k : Fin 128, lidx_main_v23 (ix2 n j) k = ix2 n k := fun k => funext fun a => Fin.ext (by match a with | ⟨0, _⟩ => rfl | ⟨1, _⟩ => rfl)
  have er23 : ∀ k : Fin 128, ridx_main_v23 (ix2 n j) k = ix2 k j := fun k => funext fun a => Fin.ext (by match a with | ⟨0, _⟩ => rfl | ⟨1, _⟩ => rfl)
  have el25 : ∀ k : Fin 128, lidx_main_v25 (ix3 n c j) k = ix3 n c k := fun k => funext fun a => Fin.ext (by match a with | ⟨0, _⟩ => rfl | ⟨1, _⟩ => rfl | ⟨2, _⟩ => rfl)
  have er25 : ∀ k : Fin 128, ridx_main_v25 (ix3 n c j) k = ix2 k j := fun k => funext fun a => Fin.ext (by match a with | ⟨0, _⟩ => rfl | ⟨1, _⟩ => rfl)
  have e28 : idx_main_v28 (idx_main_v29 (ix3 n c j)) = ix1 j := funext fun a => Fin.ext (by match a with | ⟨0, _⟩ => rfl)
  rw [val_main_v36_apply, val_main_v35_apply, val_main_cst_5_apply, val_main_v34_apply, val_main_v33_apply, val_main_cst_4_apply,
    val_main_v32_apply, val_main_v31_apply, val_main_v30_apply, val_main_v27_apply, val_main_v26_apply, val_main_v24_apply, e24,
    val_main_v23_apply, val_main_v25_apply, val_main_v29_apply, val_main_v28_apply, e28, one_word]
  simp only [el23, er23, el25, er25]
  rfl

/-- The new memory, at node n, entry j. -/
theorem cell_apply (x0 : (⟨S131072x128, .f32⟩ : BufTy).Contents (Elt Ideal)) (x1 x2 : (⟨S131072x4x128, .f32⟩ : BufTy).Contents (Elt Ideal)) (x3 x4 : (⟨S128x384, .f32⟩ : BufTy).Contents (Elt Ideal)) (x5 : (⟨S384, .f32⟩ : BufTy).Contents (Elt Ideal))
    (x6 x7 : (⟨S128x128, .f32⟩ : BufTy).Contents (Elt Ideal)) (x8 : (⟨S128, .f32⟩ : BufTy).Contents (Elt Ideal)) (n : Fin 131072) (j : Fin 128) :
    val_main_v40 (F := Ideal) x0 x1 x2 x3 x4 x5 x6 x7 x8 (ix2 n j) = cell (fun k => x0 (ix2 n k)) (fun c k => x1 (ix3 n c k)) (fun c k => x2 (ix3 n c k)) (fun k q => x3 (ix2 k q))
      (fun k q => x4 (ix2 k q)) (fun q => x5 (ix1 q)) (fun k j' => x6 (ix2 k j')) (fun k j' => x7 (ix2 k j')) (fun j' => x8 (ix1 j')) j := by
  have e : ∀ c : Fin 4, idx_main_v39 (ix2 n j) c = ix3 n c j := fun c => funext fun a => Fin.ext (by match a with | ⟨0, _⟩ => rfl | ⟨1, _⟩ => rfl | ⟨2, _⟩ => rfl)
  rw [val_main_v40_apply, val_main_v37_apply, in_gate_apply, update_apply, val_main_v39_apply, val_main_cst_6_apply, zero_word, zero_add]
  simp only [e, val_main_v38_apply, forget_apply]
  rfl

/-- The new hidden value, at node n, entry j. -/
theorem hidden_apply (x0 : (⟨S131072x128, .f32⟩ : BufTy).Contents (Elt Ideal)) (x1 x2 : (⟨S131072x4x128, .f32⟩ : BufTy).Contents (Elt Ideal)) (x3 x4 : (⟨S128x384, .f32⟩ : BufTy).Contents (Elt Ideal)) (x5 : (⟨S384, .f32⟩ : BufTy).Contents (Elt Ideal))
    (x6 x7 : (⟨S128x128, .f32⟩ : BufTy).Contents (Elt Ideal)) (x8 : (⟨S128, .f32⟩ : BufTy).Contents (Elt Ideal)) (n : Fin 131072) (j : Fin 128) :
    val_main_v42 (F := Ideal) x0 x1 x2 x3 x4 x5 x6 x7 x8 (ix2 n j) = TreeCell.hidden (fun k => x0 (ix2 n k)) (fun c k => x1 (ix3 n c k)) (fun c k => x2 (ix3 n c k)) (fun k q => x3 (ix2 k q))
      (fun k q => x4 (ix2 k q)) (fun q => x5 (ix1 q)) (fun k j' => x6 (ix2 k j')) (fun k j' => x7 (ix2 k j')) (fun j' => x8 (ix1 j')) j := by
  rw [val_main_v42_apply, out_gate_apply, val_main_v41_apply, cell_apply]
  rfl

/-- The stacked result is `result` of the arguments. -/
theorem stacked_eq (x0 : (⟨S131072x128, .f32⟩ : BufTy).Contents (Elt Ideal)) (x1 x2 : (⟨S131072x4x128, .f32⟩ : BufTy).Contents (Elt Ideal)) (x3 x4 : (⟨S128x384, .f32⟩ : BufTy).Contents (Elt Ideal)) (x5 : (⟨S384, .f32⟩ : BufTy).Contents (Elt Ideal))
    (x6 x7 : (⟨S128x128, .f32⟩ : BufTy).Contents (Elt Ideal)) (x8 : (⟨S128, .f32⟩ : BufTy).Contents (Elt Ideal)) :
    val_main_v45 (F := Ideal) x0 x1 x2 x3 x4 x5 x6 x7 x8 = result x0 x1 x2 x3 x4 x5 x6 x7 x8 := by
  funext i
  obtain ⟨s, n, j, rfl⟩ : ∃ (s : Fin 2) (n : Fin 131072) (j : Fin 128), i = ix3 s n j := ⟨i 0, i 1, i 2, eq_ix3 i⟩
  have e43 : idx_main_v43 (ix3 (0 : Fin 1) n j) = ix2 n j := funext fun a => Fin.ext (by match a with | ⟨0, _⟩ => rfl | ⟨1, _⟩ => rfl)
  have e44 : idx_main_v44 (ix3 (0 : Fin 1) n j) = ix2 n j := funext fun a => Fin.ext (by match a with | ⟨0, _⟩ => rfl | ⟨1, _⟩ => rfl)
  show _ = resultAt x0 x1 x2 x3 x4 x5 x6 x7 x8 s n j
  unfold val_main_v45 resultAt out
  by_cases hs : s.val = 0
  · rw [if_pos hs]
    refine (concatenate_pair_apply_left (t := S2x131072x128) (s₁ := S1x131072x128) (s₂ := S1x131072x128) (0 : Fin 3) _ _ _ (ix3 s n j) rfl (ix3 (0 : Fin 1) n j) (fun b => ?_)).trans ?_
    · match b with
      | ⟨0, _⟩ => exact hs.symm
      | ⟨1, _⟩ => rfl
      | ⟨2, _⟩ => rfl
    · rw [val_main_v43_apply, e43, hidden_apply]
  · rw [if_neg hs]
    have hs1 : s.val = 1 := by have := s.isLt; omega
    refine (concatenate_pair_apply_right (t := S2x131072x128) (s₁ := S1x131072x128) (s₂ := S1x131072x128) (0 : Fin 3) _ _ _ (ix3 s n j) rfl rfl (ix3 (0 : Fin 1) n j) (fun b hb => ?_) ?_).trans ?_
    · match b with
      | ⟨0, _⟩ => exact absurd rfl hb
      | ⟨1, _⟩ => rfl
      | ⟨2, _⟩ => rfl
    · show (0 : Fin 1).val + 1 = s.val; rw [hs1]; rfl
    · rw [val_main_v44_apply, e44, cell_apply]

end Cert.ReferenceIdeal.Stages

end
-- ==== Proof.lean ====
/-
  A child-sum tree cell over 131072 nodes with four children each: the tiled kernel and the whole-array reference
  compute one function of the nine arguments on the extended reals.

  For node n with input row x, children's hidden rows h c and memory rows cc c (c = 0..3):
    s = the sum of the four h c;   g = x W + s U + b (384 columns);
    f c = logistic (x Wf + h c Uf + bf);   cell = logistic (g[0:128]) * tanh (g[256:384]) + the sum over c of f c * cc c;
    hid = logistic (g[128:256]) * tanh cell;   the result stacks hid and cell.
  The kernel walks 128 tiles of 1024 nodes; in a tile it multiplies whole blocks, applies the logistic function as one
  operation, and adds the four children's terms one after the other onto the input-gate term. The reference works on
  the whole arrays, spells each logistic as 1 / (1 + e^(-z)), forms the four forget gates with one product and sums the
  gated child memories from zero. Narrowing the products' operands to bf16 is the identity here. The two differ by the
  grouping of a four-term sum, by a zero added in front of a sum, and by the spelling of the logistic function, none of
  which needs the inputs to be finite: the precondition is not opened.

  The modules: the node formula and the result as one function of the arguments (Cell); the kernel's body read at an
  entry of a tile (Tile); the tiles assembled into the result array (Whole); the reference's stages read at a node
  (Stages). Here: the three frames (the generated frame proofs; the reference's is its run with the result dropped),
  the empty ledger, and the two runs side by side.
-/
import proofs.«166441_j27504970564118_1_alg».proof.Defs
import proofs.«166441_j27504970564118_1_alg».proof.Proof.Gen.Kernel
import proofs.«166441_j27504970564118_1_alg».proof.Proof.Gen.Kernel.Skeleton
import proofs.«166441_j27504970564118_1_alg».proof.Proof.Gen.Kernel.Launch
import proofs.«166441_j27504970564118_1_alg».proof.Proof.Gen.Kernel.Points
import proofs.«166441_j27504970564118_1_alg».proof.Proof.Gen.Kernel.Frame
import proofs.«166441_j27504970564118_1_alg».proof.Proof.Gen.KernelIdeal
import proofs.«166441_j27504970564118_1_alg».proof.Proof.Gen.KernelIdeal.Skeleton
import proofs.«166441_j27504970564118_1_alg».proof.Proof.Gen.KernelIdeal.Launch
import proofs.«166441_j27504970564118_1_alg».proof.Proof.Gen.KernelIdeal.Points
import proofs.«166441_j27504970564118_1_alg».proof.Proof.Gen.KernelIdeal.Frame
import proofs.«166441_j27504970564118_1_alg».proof.Proof.Gen.ReferenceIdeal
import proofs.«166441_j27504970564118_1_alg».proof.Proof.Gen.Pre_finite_inputs
import proofs.«166441_j27504970564118_1_alg».proof.Proof.Gen.KernelIdeal.Value
import proofs.«166441_j27504970564118_1_alg».proof.Proof.Gen.ReferenceIdeal.Run
import proofs.«166441_j27504970564118_1_alg».proof.Proof.Gen.ReferenceIdeal.Read
import proofs.«166441_j27504970564118_1_alg».proof.Proof.Whole
import proofs.«166441_j27504970564118_1_alg».proof.Proof.Stages
import Idealize.ShloMosaic.Adequacy
import Idealize.ShloMosaic.Init

noncomputable section

namespace Cert.Proof

open Idealize.ShloMosaic Idealize.SL.Sem Cert.Kernel

/-- Every execution of the word-level kernel ends with the arguments unchanged. -/
theorem frame_kernel : Cert.frame_Kernel := fun m ρ _ => Cert.Kernel.Gen.frame m ρ

/-- Every execution of the idealized kernel ends with the arguments unchanged. -/
theorem frame_kernel_ideal : Cert.frame_KernelIdeal := fun m ρ _ => Cert.KernelIdeal.Gen.frame m ρ

/-- Every execution of the reference ends with the arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at `result` of the arguments. -/
theorem algebraic : Cert.algebraic_KernelIdeal_ReferenceIdeal := by
  intro m ρ m' ρ' _ hagree
  refine ⟨fun c => Cert.TreeCell.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v45_eq, Cert.ReferenceIdeal.Stages.stacked_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
